-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x8x128 : Shape := ⟨4, ![16, 256, 8, 128]⟩
abbrev S1024x4096 : Shape := ⟨2, ![1024, 4096]⟩
abbrev S4096 : Shape := ⟨1, ![4096]⟩
abbrev S4096x128 : Shape := ⟨2, ![4096, 128]⟩
abbrev S128 : Shape := ⟨1, ![128]⟩
abbrev S_ : Shape := ⟨0, ![]⟩

class Facts : Prop where
  bcast_S_S16x256x8x128 : S_.BroadcastsInDim S16x256x8x128 (![] : Fin 0 → Fin S16x256x8x128.rank)
  reducesTo_S16x256x8x128_S_d0_1_2_3 : S16x256x8x128.ReducesTo [0, 1, 2, 3] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S16x256x8x128 .f32) (main_arg1 : FVec F S1024x4096 .f32) (main_arg2 : FVec F S4096 .f32) (main_arg3 : FVec F S4096x128 .f32) (main_arg4 : FVec F S128 .f32) : IVec S_ 1 :=
  let main_v0 : FVec F S16x256x8x128 .f32 := Host.absf main_arg0
  let main_cst : FVec F S_ .f32 := constant S_ .f32 0x7F800000#32
  let main_v1 : FVec F S16x256x8x128 .f32 := broadcastInDim S16x256x8x128 ![] bcast_S_S16x256x8x128 main_cst
  let main_v2 : IVec S16x256x8x128 1 := cmpf .olt main_v0 main_v1
  let main_c : IVec S_ 1 := constantI S_ 1 1#1
  let main_v3 : IVec S_ 1 := (fun x v => Host.reduce IntOp.andi x v reducesTo_S16x256x8x128_S_d0_1_2_3 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x128 .f32 := Host.absf main_arg3
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_arg4 main_v13 main_v16
-- ==== Kernel.lean ====
abbrev S16x256x8x128 : Shape := ⟨4, ![16, 256, 8, 128]⟩
abbrev S1024x4096 : Shape := ⟨2, ![1024, 4096]⟩
abbrev S4096 : Shape := ⟨1, ![4096]⟩
abbrev S4096x128 : Shape := ⟨2, ![4096, 128]⟩
abbrev S128 : Shape := ⟨1, ![128]⟩
abbrev S4096x1024 : Shape := ⟨2, ![4096, 1024]⟩
abbrev S4096x8x128 : Shape := ⟨3, ![4096, 8, 128]⟩
abbrev S256x1024 : Shape := ⟨2, ![256, 1024]⟩
abbrev S256x8x128 : Shape := ⟨3, ![256, 8, 128]⟩
abbrev S256x4096 : Shape := ⟨2, ![256, 4096]⟩
abbrev S1x4096 : Shape := ⟨2, ![1, 4096]⟩
abbrev S256x128 : Shape := ⟨2, ![256, 128]⟩
abbrev S1x128 : Shape := ⟨2, ![1, 128]⟩
abbrev S256x1x128 : Shape := ⟨3, ![256, 1, 128]⟩

abbrev nBuf : Space → Nat
  | .hbm => 11
  | .vmem => 8
  | .smem => 0
  | _ => 0

abbrev bufTy : (tb : Table) → Fin (tcTables nBuf tb) → BufTy
  | .hbm, ⟨0, _⟩ => ⟨S16x256x8x128, .f32⟩
  | .hbm, ⟨1, _⟩ => ⟨S1024x4096, .f32⟩
  | .hbm, ⟨2, _⟩ => ⟨S4096, .f32⟩
  | .hbm, ⟨3, _⟩ => ⟨S4096x128, .f32⟩
  | .hbm, ⟨4, _⟩ => ⟨S128, .f32⟩
  | .hbm, ⟨5, _⟩ => ⟨S4096x1024, .f32⟩
  | .hbm, ⟨6, _⟩ => ⟨S4096x1024, .bf16⟩
  | .hbm, ⟨7, _⟩ => ⟨S1024x4096, .bf16⟩
  | .hbm, ⟨8, _⟩ => ⟨S4096x128, .bf16⟩
  | .hbm, ⟨9, _⟩ => ⟨S4096x8x128, .f32⟩
  | .hbm, ⟨10, _⟩ => ⟨S16x256x8x128, .f32⟩
  | .local _ .vmem, ⟨0, _⟩ => ⟨S256x1024, .bf16⟩
  | .local _ .vmem, ⟨1, _⟩ => ⟨S256x1024, .bf16⟩
  | .local _ .vmem, ⟨2, _⟩ => ⟨S1024x4096, .bf16⟩
  | .local _ .vmem, ⟨3, _⟩ => ⟨S4096, .f32⟩
  | .local _ .vmem, ⟨4, _⟩ => ⟨S4096x128, .bf16⟩
  | .local _ .vmem, ⟨5, _⟩ => ⟨S128, .f32⟩
  | .local _ .vmem, ⟨6, _⟩ => ⟨S256x8x128, .f32⟩
  | .local _ .vmem, ⟨7, _⟩ => ⟨S256x8x128, .f32⟩
  | _, _ => ⟨S16x256x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x256x8x128_S4096x1024 : S16x256x8x128.ShapeCasts S4096x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128_S128_0 : ∀ a, (![0] : Fin 1 → Nat) a + S128.size a ≤ S128.size a
  h_S128 : 0 < S128.numel
  iota_S256x1024_d1_w32 : S256x1024.Iotas .tc 32 [1]
  natLt_1_32 : 1 < 32
  shapeCasts_S4096_S1x4096 : S4096.ShapeCasts S1x4096
  broadcasts_S1x4096_S256x4096 : S1x4096.Broadcasts S256x4096
  shapeCasts_S128_S1x128 : S128.ShapeCasts S1x128
  broadcasts_S1x128_S256x128 : S1x128.Broadcasts S256x128
  inb_S256x8x128_S256x1x128_0_0_0 : ∀ a, (![0, 0, 0] : Fin 3 → Nat) a + S256x1x128.size a ≤ S256x8x128.size a
  h_S256x1x128 : 0 < S256x1x128.numel
  shapeCasts_S256x1x128_S256x128 : S256x1x128.ShapeCasts S256x128
  shapeCasts_S256x128_S256x1x128 : S256x128.ShapeCasts S256x1x128
  inb_S256x8x128_S256x1x128_0_1_0 : ∀ a, (![0, 1, 0] : Fin 3 → Nat) a + S256x1x128.size a ≤ S256x8x128.size a
  inb_S256x8x128_S256x1x128_0_2_0 : ∀ a, (![0, 2, 0] : Fin 3 → Nat) a + S256x1x128.size a ≤ S256x8x128.size a
  inb_S256x8x128_S256x1x128_0_3_0 : ∀ a, (![0, 3, 0] : Fin 3 → Nat) a + S256x1x128.size a ≤ S256x8x128.size a
  inb_S256x8x128_S256x1x128_0_4_0 : ∀ a, (![0, 4, 0] : Fin 3 → Nat) a + S256x1x128.size a ≤ S256x8x128.size a
  inb_S256x8x128_S256x1x128_0_5_0 : ∀ a, (![0, 5, 0] : Fin 3 → Nat) a + S256x1x128.size a ≤ S256x8x128.size a
  inb_S256x8x128_S256x1x128_0_6_0 : ∀ a, (![0, 6, 0] : Fin 3 → Nat) a + S256x1x128.size a ≤ S256x8x128.size a
  inb_S256x8x128_S256x1x128_0_7_0 : ∀ a, (![0, 7, 0] : Fin 3 → Nat) a + S256x1x128.size a ≤ S256x8x128.size a
  shapeCasts_S4096x8x128_S16x256x8x128 : S4096x8x128.ShapeCasts S16x256x8x128
  dot_S256x1024_S1024x4096_S256x4096_1_0_0_1_n_n_wf : DotDims.WF S256x1024 S1024x4096 S256x4096 [1] [0] [0] [1] [] []
  dot_S256x4096_S4096x128_S256x128_1_0_0_1_n_n_wf : DotDims.WF S256x4096 S4096x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .bf16 = 32 ∨ (Rect.block (s := S4096x1024) S256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x128.size a
  hwx0_3 : ∀ i : grid0.Coords, EltTy.bits .bf16 = 32 ∨ (Rect.block (s := S4096x128) S4096x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x8x128.size a ≤ S4096x8x128.size a
  hwx0_5 : ∀ i : grid0.Coords, EltTy.bits .f32 = 32 ∨ (Rect.block (s := S4096x8x128) S256x8x128.size (cc0_transform_5 i) (hinb0_5 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf

abbrev win0_0 : Pipeline.Window sig grid0 :=
  Pipeline.Window.ofSpec (Memref.whole main_v1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4096x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x256x8x128 : Shape := ⟨4, ![16, 256, 8, 128]⟩
abbrev S1024x4096 : Shape := ⟨2, ![1024, 4096]⟩
abbrev S4096 : Shape := ⟨1, ![4096]⟩
abbrev S4096x128 : Shape := ⟨2, ![4096, 128]⟩
abbrev S128 : Shape := ⟨1, ![128]⟩
abbrev S16x256x1024 : Shape := ⟨3, ![16, 256, 1024]⟩
abbrev S1024 : Shape := ⟨1, ![1024]⟩
abbrev S1x1024 : Shape := ⟨2, ![1, 1024]⟩
abbrev S8 : Shape := ⟨1, ![8]⟩
abbrev S_ : Shape := ⟨0, ![]⟩
abbrev S8x1 : Shape := ⟨2, ![8, 1]⟩
abbrev S8x1024 : Shape := ⟨2, ![8, 1024]⟩
abbrev S16x256x1x1024 : Shape := ⟨4, ![16, 256, 1, 1024]⟩
abbrev S1x1x8x1024 : Shape := ⟨4, ![1, 1, 8, 1024]⟩
abbrev S16x256x8x1024 : Shape := ⟨4, ![16, 256, 8, 1024]⟩
abbrev S16x256x8x4096 : Shape := ⟨4, ![16, 256, 8, 4096]⟩
abbrev S1x1x1x4096 : Shape := ⟨4, ![1, 1, 1, 4096]⟩
abbrev S1x1x1x128 : Shape := ⟨4, ![1, 1, 1, 128]⟩

abbrev nBuf : Space → Nat
  | .hbm => 47
  | .vmem => 0
  | .smem => 0
  | _ => 0

abbrev bufTy : (tb : Table) → Fin (tcTables nBuf tb) → BufTy
  | .hbm, ⟨0, _⟩ => ⟨S16x256x8x128, .f32⟩
  | .hbm, ⟨1, _⟩ => ⟨S1024x4096, .f32⟩
  | .hbm, ⟨2, _⟩ => ⟨S4096, .f32⟩
  | .hbm, ⟨3, _⟩ => ⟨S4096x128, .f32⟩
  | .hbm, ⟨4, _⟩ => ⟨S128, .f32⟩
  | .hbm, ⟨5, _⟩ => ⟨S16x256x1024, .f32⟩
  | .hbm, ⟨6, _⟩ => ⟨S1024, .i32⟩
  | .hbm, ⟨7, _⟩ => ⟨S1x1024, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S8x1, .i32⟩
  | .hbm, ⟨13, _⟩ => ⟨S8x1024, .i32⟩
  | .hbm, ⟨14, _⟩ => ⟨S8x1024, .i32⟩
  | .hbm, ⟨15, _⟩ => ⟨S8x1024, .i1⟩
  | .hbm, ⟨16, _⟩ => ⟨S8x1024, .f32⟩
  | .hbm, ⟨17, _⟩ => ⟨S16x256x1x1024, .f32⟩
  | .hbm, ⟨18, _⟩ => ⟨S1x1x8x1024, .f32⟩
  | .hbm, ⟨19, _⟩ => ⟨S16x256x8x1024, .f32⟩
  | .hbm, ⟨20, _⟩ => ⟨S16x256x8x1024, .f32⟩
  | .hbm, ⟨21, _⟩ => ⟨S16x256x8x1024, .f32⟩
  | .hbm, ⟨22, _⟩ => ⟨S16x256x8x4096, .f32⟩
  | .hbm, ⟨23, _⟩ => ⟨S1x1x1x4096, .f32⟩
  | .hbm, ⟨24, _⟩ => ⟨S16x256x8x4096, .f32⟩
  | .hbm, ⟨25, _⟩ => ⟨S16x256x8x4096, .f32⟩
  | .hbm, ⟨26, _⟩ => ⟨S_, .f32⟩
  | .hbm, ⟨27, _⟩ => ⟨S16x256x8x4096, .f32⟩
  | .hbm, ⟨28, _⟩ => ⟨S16x256x8x4096, .f32⟩
  | .hbm, ⟨29, _⟩ => ⟨S_, .f32⟩
  | .hbm, ⟨30, _⟩ => ⟨S16x256x8x4096, .f32⟩
  | .hbm, ⟨31, _⟩ => ⟨S16x256x8x4096, .f32⟩
  | .hbm, ⟨32, _⟩ => ⟨S16x256x8x4096, .f32⟩
  | .hbm, ⟨33, _⟩ => ⟨S16x256x8x4096, .f32⟩
  | .hbm, ⟨34, _⟩ => ⟨S16x256x8x4096, .f32⟩
  | .hbm, ⟨35, _⟩ => ⟨S_, .f32⟩
  | .hbm, ⟨36, _⟩ => ⟨S16x256x8x4096, .f32⟩
  | .hbm, ⟨37, _⟩ => ⟨S16x256x8x4096, .f32⟩
  | .hbm, ⟨38, _⟩ => ⟨S16x256x8x4096, .f32⟩
  | .hbm, ⟨39, _⟩ => ⟨S_, .f32⟩
  | .hbm, ⟨40, _⟩ => ⟨S16x256x8x4096, .f32⟩
  | .hbm, ⟨41, _⟩ => ⟨S16x256x8x4096, .f32⟩
  | .hbm, ⟨42, _⟩ => ⟨S16x256x8x4096, .f32⟩
  | .hbm, ⟨43, _⟩ => ⟨S16x256x8x128, .f32⟩
  | .hbm, ⟨44, _⟩ => ⟨S1x1x1x128, .f32⟩
  | .hbm, ⟨45, _⟩ => ⟨S16x256x8x128, .f32⟩
  | .hbm, ⟨46, _⟩ => ⟨S16x256x8x128, .f32⟩
  | _, _ => ⟨S16x256x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  shapeCasts_S16x256x8x128_S16x256x1024 : S16x256x8x128.ShapeCasts S16x256x1024
  bcast_S1024_S1x1024_1 : S1024.BroadcastsInDim S1x1024 (![1] : Fin 1 → Fin S1x1024.rank)
  bcast_S_S8 : S_.BroadcastsInDim S8 (![] : Fin 0 → Fin S8.rank)
  bcast_S8_S8x1_0 : S8.BroadcastsInDim S8x1 (![0] : Fin 1 → Fin S8x1.rank)
  bcast_S1x1024_S8x1024_0_1 : S1x1024.BroadcastsInDim S8x1024 (![0, 1] : Fin 2 → Fin S8x1024.rank)
  bcast_S8x1_S8x1024_0_1 : S8x1.BroadcastsInDim S8x1024 (![0, 1] : Fin 2 → Fin S8x1024.rank)
  bcast_S16x256x1024_S16x256x1x1024_0_1_3 : S16x256x1024.BroadcastsInDim S16x256x1x1024 (![0, 1, 3] : Fin 3 → Fin S16x256x1x1024.rank)
  bcast_S8x1024_S1x1x8x1024_2_3 : S8x1024.BroadcastsInDim S1x1x8x1024 (![2, 3] : Fin 2 → Fin S1x1x8x1024.rank)
  bcast_S16x256x1x1024_S16x256x8x1024_0_1_2_3 : S16x256x1x1024.BroadcastsInDim S16x256x8x1024 (![0, 1, 2, 3] : Fin 4 → Fin S16x256x8x1024.rank)
  bcast_S1x1x8x1024_S16x256x8x1024_0_1_2_3 : S1x1x8x1024.BroadcastsInDim S16x256x8x1024 (![0, 1, 2, 3] : Fin 4 → Fin S16x256x8x1024.rank)
  bcast_S4096_S1x1x1x4096_3 : S4096.BroadcastsInDim S1x1x1x4096 (![3] : Fin 1 → Fin S1x1x1x4096.rank)
  bcast_S1x1x1x4096_S16x256x8x4096_0_1_2_3 : S1x1x1x4096.BroadcastsInDim S16x256x8x4096 (![0, 1, 2, 3] : Fin 4 → Fin S16x256x8x4096.rank)
  bcast_S_S16x256x8x4096 : S_.BroadcastsInDim S16x256x8x4096 (![] : Fin 0 → Fin S16x256x8x4096.rank)
  bcast_S128_S1x1x1x128_3 : S128.BroadcastsInDim S1x1x1x128 (![3] : Fin 1 → Fin S1x1x1x128.rank)
  bcast_S1x1x1x128_S16x256x8x128_0_1_2_3 : S1x1x1x128.BroadcastsInDim S16x256x8x128 (![0, 1, 2, 3] : Fin 4 → Fin S16x256x8x128.rank)
  dot_S16x256x8x1024_S1024x4096_S16x256x8x4096_3_0_012_1_n_n_wf : DotDims.WF S16x256x8x1024 S1024x4096 S16x256x8x4096 [3] [0] [0, 1, 2] [1] [] []
  dot_S16x256x8x4096_S4096x128_S16x256x8x128_3_0_012_1_n_n_wf : DotDims.WF S16x256x8x4096 S4096x128 S16x256x8x128 [3] [0] [0, 1, 2] [1] [] []

variable [Facts₀]

def dot_S16x256x8x1024_S1024x4096_S16x256x8x4096_3_0_012_1_n_n : DotDims S16x256x8x1024 S1024x4096 S16x256x8x4096 where
  lhsContracting := [3]
  rhsContracting := [0]
  lhsNonContracting := [0, 1, 2]
  rhsNonContracting := [1]
  lhsBatch := []
  rhsBatch := []
  wf := dot_S16x256x8x1024_S1024x4096_S16x256x8x4096_3_0_012_1_n_n_wf
def dot_S16x256x8x4096_S4096x128_S16x256x8x128_3_0_012_1_n_n : DotDims S16x256x8x4096 S4096x128 S16x256x8x128 where
  lhsContracting := [3]
  rhsContracting := [0]
  lhsNonContracting := [0, 1, 2]
  rhsNonContracting := [1]
  lhsBatch := []
  rhsBatch := []
  wf := dot_S16x256x8x4096_S4096x128_S16x256x8x128_3_0_012_1_n_n_wf

class Facts : Prop extends Facts₀ where

variable [Facts]
-- ==== Proof.MaskedMlp.lean ====
/-
  The mathematics both programs compute, written once over the extended reals.

  A row of 1024 features is cut at one of eight levels: level l keeps the features e with e ≥ 128·l and zeroes the
  others (the keep factor is the word of the signed comparison e ≥ l·128 read as 0 or 1). The kept row goes through
  a two-layer perceptron shared by all levels: a hidden layer of 4096 units, z(h) = Σₑ x(e)·keep(l, e)·W₁(e, h) + b₁(h),
  the tanh form of the GELU activation, and an output layer of 128 units, Σₕ gelu(z(h))·W₂(h, q) + b₂(q).

  The activation is written twice, as the two programs group its products:
    z · (½ · (1 + tanh(c·(z + k·(z·(z·z))))))   and   (½·z) · (1 + tanh(c·(z + ((k·z)·z)·z))),
  with the same two literals c and k. Multiplication on the extended reals is commutative and associative, so the
  two are equal at every z, infinite ones included; no entry is asked to be finite anywhere below.

  The input has 16·256 rows of 8·128 features; row (b, p) at feature e is entry (b, p, e / 128, e % 128). The result
  has, for every row and every level, 128 outputs: `mlp` over the four-axis layout [16, 256, 8, 128], `mlpRows` over
  the rows numbered 0 … 4095, and `mlpTile` over a tile of 256 rows.
-/
import Idealize.ShloMosaic.PureOps.Ideal
import Idealize.ShloMosaic.Lib.ValueIdx

noncomputable section

namespace Cert.MaskedMlp

open Idealize.ShloMosaic Idealize.ShloMosaic.ValueIdx

/-- The cubic coefficient of the tanh form, as the float literal both programs carry. -/
abbrev cubic : EReal := Ideal.ofBits .f32 0x3D372713#32
/-- The scale inside the tanh, as the float literal both programs carry. -/
abbrev scale : EReal := Ideal.ofBits .f32 0x3F4C422A#32
/-- The literal one. -/
abbrev one : EReal := Ideal.ofBits .f32 0x3F800000#32
/-- The literal one half. -/
abbrev half : EReal := Ideal.ofBits .f32 0x3F000000#32

/-- The activation with the outer product grouped as z · (½ · …) and the cube as z · (z · z). -/
def gelu (z : EReal) : EReal := z * (half * (one + Ideal.tanh (scale * (z + cubic * (z * (z * z))))))

/-- The activation with the outer product grouped as (½ · z) · … and the cube as ((k · z) · z) · z. -/
def gelu' (z : EReal) : EReal := half * z * (one + Ideal.tanh (scale * (z + cubic * z * z * z)))

/-- The two groupings agree: only commutativity and associativity of the product are used. -/
theorem gelu'_eq (z : EReal) : gelu' z = gelu z := by
  unfold gelu' gelu
  have e : cubic * z * z * z = cubic * (z * (z * z)) := by rw [mul_assoc, mul_assoc]
  rw [e, mul_comm half z, mul_assoc]

/-- The one-bit word of the signed comparison e ≥ l·128 on 32-bit words. -/
def keepWord (l : Fin 8) (e : Fin 1024) : BitVec 1 :=
  IntOp.cmpi .sge (BitVec.ofNat 32 e.val) (IntOp.muli (BitVec.ofNat 32 l.val) 128#32)

/-- The keep factor of feature e at level l: that word read as the number 0 or 1. -/
def keep (l : Fin 8) (e : Fin 1024) : EReal := (((keepWord l e).toNat : ℝ) : EReal)

/-- The perceptron's 128 outputs for one row `x` of 1024 features at level `l`. -/
def rowOut (x : Fin 1024 → EReal) (l : Fin 8)
    (W1 : (⟨2, ![1024, 4096]⟩ : Shape).Idx → EReal) (b1 : (⟨1, ![4096]⟩ : Shape).Idx → EReal)
    (W2 : (⟨2, ![4096, 128]⟩ : Shape).Idx → EReal) (b2 : (⟨1, ![128]⟩ : Shape).Idx → EReal) (q : Fin 128) : EReal :=
  (∑ h : Fin 4096, gelu ((∑ e : Fin 1024, x e * keep l e * W1 (ix2 e h)) + b1 (ix1 h)) * W2 (ix2 h q)) + b2 (ix1 q)

/-- Where feature `e` of row `(b, p)` sits in the four-axis input. -/
def featureAt (b : Fin 16) (p : Fin 256) (e : Fin 1024) : (⟨4, ![16, 256, 8, 128]⟩ : Shape).Idx :=
  ix4 b p ⟨e.val / 128, by have := e.isLt; omega⟩ ⟨e.val % 128, Nat.mod_lt _ (by decide)⟩

/-- The whole result over the four-axis layout: entry (b, p, l, q) is output q of row (b, p) at level l. -/
def mlp (x : (⟨4, ![16, 256, 8, 128]⟩ : Shape).Idx → EReal)
    (W1 : (⟨2, ![1024, 4096]⟩ : Shape).Idx → EReal) (b1 : (⟨1, ![4096]⟩ : Shape).Idx → EReal)
    (W2 : (⟨2, ![4096, 128]⟩ : Shape).Idx → EReal) (b2 : (⟨1, ![128]⟩ : Shape).Idx → EReal) :
    (⟨4, ![16, 256, 8, 128]⟩ : Shape).Idx → EReal :=
  fun i => rowOut (fun e => x (featureAt (i 0) (i 1) e)) (i 2) W1 b1 W2 b2 (i 3)

/-- The same over the rows numbered 0 … 4095, the input given as a 4096 × 1024 matrix. -/
def mlpRows (X : (⟨2, ![4096, 1024]⟩ : Shape).Idx → EReal)
    (W1 : (⟨2, ![1024, 4096]⟩ : Shape).Idx → EReal) (b1 : (⟨1, ![4096]⟩ : Shape).Idx → EReal)
    (W2 : (⟨2, ![4096, 128]⟩ : Shape).Idx → EReal) (b2 : (⟨1, ![128]⟩ : Shape).Idx → EReal) :
    (⟨3, ![4096, 8, 128]⟩ : Shape).Idx → EReal :=
  fun j => rowOut (fun e => X (ix2 (j 0) e)) (j 1) W1 b1 W2 b2 (j 2)

/-- The same over one tile of 256 rows. -/
def mlpTile (X : (⟨2, ![256, 1024]⟩ : Shape).Idx → EReal)
    (W1 : (⟨2, ![1024, 4096]⟩ : Shape).Idx → EReal) (b1 : (⟨1, ![4096]⟩ : Shape).Idx → EReal)
    (W2 : (⟨2, ![4096, 128]⟩ : Shape).Idx → EReal) (b2 : (⟨1, ![128]⟩ : Shape).Idx → EReal) :
    (⟨3, ![256, 8, 128]⟩ : Shape).Idx → EReal :=
  fun y => rowOut (fun e => X (ix2 (y 0) e)) (y 1) W1 b1 W2 b2 (y 2)

end Cert.MaskedMlp

end
-- ==== Proof.LibSideBySide.lean ====
/-
  Two matrix products with a common right factor, laid side by side.

  Over the extended reals, entry (a, b) of the product of an r×k matrix A with a k×n matrix B is the sum over the
  contracted coordinate c of A(a, c) · B(c, b). No rounding and no order of summation is left in it: addition on the
  extended reals is commutative and associative, so the sum is a plain finite sum and nothing here asks that an entry be
  finite.

  A kernel forms such a product on the matrix unit, accumulating into a zero block; the host forms it by a
  dot_general with no accumulator. At the ideal values both are that sum (`kernelProduct_apply`, `hostProduct_apply`),
  whatever float formats the factors were narrowed to on the way, a change of format being the identity there.

  `sideBySide A₁ A₂ B` is the r×w array whose columns 0 … n−1 hold A₁·B and whose columns n … 2n−1 hold A₂·B: what
  concatenating the two products along the column axis gives (`concatenate_products`), and equally what writing one product
  into the left half of a block and the other into the right half gives. Row p of either product depends on row p of its left
  factor alone, so a block of rows of the side-by-side array is the side-by-side array of the blocks of rows (`sideBySide_rows`).
-/
import Idealize.ShloMosaic.Lib.StackMember

noncomputable section

namespace SideBySide

open Idealize.ShloMosaic Idealize.ShloMosaic.ValueIdx

variable {r k n w : Nat}

/-- Entry (a, b) of the product A·B of an r×k and a k×n matrix of extended reals. -/
def entry (A : (⟨2, ![r, k]⟩ : Shape).Idx → EReal) (B : (⟨2, ![k, n]⟩ : Shape).Idx → EReal) (a : Fin r) (b : Fin n) : EReal :=
  ∑ c : Fin k, A (ix2 a c) * B (ix2 c b)

/-- The host's product of an r×k by a k×n matrix (rows by columns, one contracted axis), read at (a, b), is that entry. The
    dimension numbers are given as a record equal to the plain one, so that a program's own record fits. -/
theorem hostProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    Host.dotGeneral d prec A B (ix2 a b) = entry A B a b := by
  subst hd
  exact StackMember.dotGeneral_plain_apply prec A B a b

/-- The matrix unit's product accumulated into a zero block, read at (a, b), is the same entry: the zero contributes
    nothing to the sum. -/
theorem kernelProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    matmul d prec A B (constant (F := Ideal) ⟨2, ![r, n]⟩ .f32 0x00000000#32) (ix2 a b) = entry A B a b := by
  rw [matmul_zero_eq_dotGeneral]
  exact hostProduct_apply d hd prec A B a b

/-- The r×w array with A₁·B in columns 0 … n−1 and A₂·B in columns n … 2n−1 (zero in any column past 2n−1, of which an
    array of width 2n has none). -/
def sideBySide (A₁ A₂ : (⟨2, ![r, k]⟩ : Shape).Idx → EReal) (B : (⟨2, ![k, n]⟩ : Shape).Idx → EReal) :
    (⟨2, ![r, w]⟩ : Shape).Idx → EReal := fun j =>
  if h : (j 1).val < n then entry A₁ B (j 0) ⟨(j 1).val, h⟩
  else if h' : (j 1).val - n < n then entry A₂ B (j 0) ⟨(j 1).val - n, h'⟩ else 0

/-- A column of the left half reads the first product. -/
theorem sideBySide_left (A₁ A₂ : (⟨2, ![r, k]⟩ : Shape).Idx → EReal) (B : (⟨2, ![k, n]⟩ : Shape).Idx → EReal)
    (a : Fin r) (b : Fin w) (hb : b.val < n) :
    sideBySide (w := w) A₁ A₂ B (ix2 a b) = entry A₁ B a ⟨b.val, hb⟩ := by
  show (if h : b.val < n then entry A₁ B a ⟨b.val, h⟩
    else if h' : b.val - n < n then entry A₂ B a ⟨b.val - n, h'⟩ else 0) = _
  rw [dif_pos hb]

/-- A column of the right half reads the second product, n columns to the left. -/
theorem sideBySide_right (A₁ A₂ : (⟨2, ![r, k]⟩ : Shape).Idx → EReal) (B : (⟨2, ![k, n]⟩ : Shape).Idx → EReal)
    (a : Fin r) (b : Fin w) (hb : n ≤ b.val) (hb' : b.val - n < n) :
    sideBySide (w := w) A₁ A₂ B (ix2 a b) = entry A₂ B a ⟨b.val - n, hb'⟩ := by
  show (if h : b.val < n then entry A₁ B a ⟨b.val, h⟩
    else if h' : b.val - n < n then entry A₂ B a ⟨b.val - n, h'⟩ else 0) = _
  rw [dif_neg (Nat.not_lt.2 hb), dif_pos hb']

/-- A column past both halves reads zero. -/
theorem sideBySide_beyond (A₁ A₂ : (⟨2, ![r, k]⟩ : Shape).Idx → EReal) (B : (⟨2, ![k, n]⟩ : Shape).Idx → EReal)
    (a : Fin r) (b : Fin w) (hb : ¬ b.val < n) (hb' : ¬ b.val - n < n) :
    sideBySide (w := w) A₁ A₂ B (ix2 a b) = 0 := by
  show (if h : b.val < n then entry A₁ B a ⟨b.val, h⟩
    else if h' : b.val - n < n then entry A₂ B a ⟨b.val - n, h'⟩ else 0) = _
  rw [dif_neg hb, dif_neg hb']

/-- A block of rows of the side-by-side array is the side-by-side array of that block of rows of each left factor: row p
    of a product depends on row p of its left factor only. Here a₁ and a₂ are rows off … off + r − 1 of A₁ and A₂. -/
theorem sideBySide_rows {R : Nat} (A₁ A₂ : (⟨2, ![R, k]⟩ : Shape).Idx → EReal) (B : (⟨2, ![k, n]⟩ : Shape).Idx → EReal)
    (a₁ a₂ : (⟨2, ![r, k]⟩ : Shape).Idx → EReal) (off : Nat) (hoff : off + r ≤ R)
    (h₁ : ∀ (p : Fin r) (c : Fin k), a₁ (ix2 p c) = A₁ (ix2 ⟨off + p.val, by have := p.isLt; omega⟩ c))
    (h₂ : ∀ (p : Fin r) (c : Fin k), a₂ (ix2 p c) = A₂ (ix2 ⟨off + p.val, by have := p.isLt; omega⟩ c))
    (p : Fin r) (b : Fin w) :
    sideBySide (w := w) a₁ a₂ B (ix2 p b)
      = sideBySide (w := w) A₁ A₂ B (ix2 ⟨off + p.val, by have := p.isLt; omega⟩ b) := by
  have e₁ : ∀ q : Fin n, entry a₁ B p q = entry A₁ B ⟨off + p.val, by have := p.isLt; omega⟩ q := fun q => by
    unfold entry; exact Finset.sum_congr rfl fun c _ => by rw [h₁]
  have e₂ : ∀ q : Fin n, entry a₂ B p q = entry A₂ B ⟨off + p.val, by have := p.isLt; omega⟩ q := fun q => by
    unfold entry; exact Finset.sum_congr rfl fun c _ => by rw [h₂]
  by_cases hb : b.val < n
  · rw [sideBySide_left _ _ _ _ _ hb, sideBySide_left _ _ _ _ _ hb, e₁]
  · by_cases hb' : b.val - n < n
    · rw [sideBySide_right _ _ _ _ _ (Nat.not_lt.1 hb) hb', sideBySide_right _ _ _ _ _ (Nat.not_lt.1 hb) hb', e₂]
    · rw [sideBySide_beyond _ _ _ _ _ hb hb', sideBySide_beyond _ _ _ _ _ hb hb']

/-- The host's two products concatenated along the column axis are the two products side by side. -/
theorem concatenate_products {φ₁ φ₂ : FTy} (d : DotDims ⟨2, ![r, k]⟩ ⟨2, ![k, n]⟩ ⟨2, ![r, n]⟩) (hd : d = DotDims.plain r k n)
    (prec : Option ContractPrecision) (A₁ A₂ : FVec Ideal ⟨2, ![r, k]⟩ φ₁) (B : FVec Ideal ⟨2, ![k, n]⟩ φ₂)
    (hw : w = n + n)
    (h : Shape.Concatenates [(⟨2, ![r, n]⟩ : Shape), (⟨2, ![r, n]⟩ : Shape)] (⟨2, ![r, w]⟩ : Shape) 1) :
    concatenate (⟨2, ![r, w]⟩ : Shape) 1
        [⟨(⟨2, ![r, n]⟩ : Shape), Host.dotGeneral d prec A₁ B⟩, ⟨(⟨2, ![r, n]⟩ : Shape), Host.dotGeneral d prec A₂ B⟩] h
      = sideBySide (w := w) A₁ A₂ B := by
  funext j
  obtain ⟨a, b, rfl⟩ : ∃ (a : Fin r) (b : Fin w), j = ix2 a b := ⟨j 0, j 1, eq_ix2 j⟩
  by_cases hb : b.val < n
  · rw [sideBySide_left A₁ A₂ B a b hb, ← hostProduct_apply d hd prec A₁ B a ⟨b.val, hb⟩]
    exact concatenate_pair_apply_left 1 _ _ h (ix2 a b) rfl (ix2 a ⟨b.val, hb⟩)
      (fun q => by match q with | ⟨0, _⟩ => rfl | ⟨1, _⟩ => rfl)
  · have hb1 : n ≤ b.val := Nat.not_lt.1 hb
    have hb2 : b.val - n < n := by have := b.isLt; omega
    rw [sideBySide_right A₁ A₂ B a b hb1 hb2, ← hostProduct_apply d hd prec A₂ B a ⟨b.val - n, hb2⟩]
    exact concatenate_pair_apply_right 1 _ _ h (ix2 a b) rfl rfl (ix2 a ⟨b.val - n, hb2⟩)
      (fun q hq => by
        match q with
        | ⟨0, _⟩ => rfl
        | ⟨1, _⟩ => exact absurd rfl hq)
      (by show (b.val - n) + n = b.val; omega)

end SideBySide

end
-- ==== Proof.LibMiddleUnit.lean ====
/-
  Layout operations around a unit MIDDLE axis or a unit LEADING axis of a rank-3 array, read at an index given by
  coordinates: an [a, b] array cast to the row form [a, 1, b] and back, an [a, 1, b] array broadcast along its middle
  axis to [a, c, b], and a [1, a, b] array broadcast along its leading axis to [c, a, b]. Together with the column forms
  ([a, b] cast to [a, b, 1], and [a, b, 1] broadcast to [a, b, c]) they read an outer difference x(i) − x(j) laid out over
  a pair of axes.
-/
import Idealize.ShloMosaic.Lib.Pipeline.Value
import Idealize.ShloMosaic.Lib.ValueLayout
import Idealize.ShloMosaic.Lib.ValueIdx

noncomputable section

namespace Cert.MiddleUnit

open Idealize.ShloMosaic Idealize.ShloMosaic.ValueIdx

/-- An [a, b] array cast to the row form [a, 1, b] reads, at (i, u, j), the operand at (i, j), whatever the unit
    coordinate u. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, 1, b] array cast to [a, b] reads, at (i, j), the operand at (i, 0, j). -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An [a, 1, b] array broadcast along the middle axis to [a, c, b] reads, at (i, k, j), the operand's one entry of
    (i, j). -/
theorem broadcastTo_a1b_acb_apply {α : Type} {a b c : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A [1, a, b] array broadcast along the leading axis to [c, a, b] reads, at (k, i, j), the operand at (0, i, j). -/
theorem broadcastTo_1ab_cab_apply {α : Type} {a b c : ℕ} (v : (⟨3, ![1, a, b]⟩ : Shape).Idx → α)
    (h : (⟨3, ![1, a, b]⟩ : Shape).Broadcasts ⟨3, ![c, a, b]⟩) (k : Fin c) (i : Fin a) (j : Fin b) :
    broadcastTo ⟨3, ![c, a, b]⟩ v h (ix3 k i j) = v (ix3 (0 : Fin 1) i j) := by
  refine broadcastTo_apply v h (ix3 k i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

end Cert.MiddleUnit

end
-- ==== Proof.KernelLevel.lean ====
/-
  One level of the kernel's body, as a function of the threshold word.

  The body repeats one computation eight times, once per level, with the threshold 0, 128, …, 896 of the feature mask
  written into the text: the tile's rows are multiplied by the 0/1 mask of the features at or past the threshold, go
  through the first matrix product and bias, the tanh form of the activation, the second product and bias, and are laid
  out as a [256, 1, 128] slab for the level's slot of the output tile. `level thr` is that computation with the
  threshold a variable; each of the eight stored values is `level` at its literal threshold, by unfolding.

  Read at the extended reals, entry (p, ·, q) of `level thr` is the perceptron's output q for row p of the tile with
  the keep factor "feature e ≥ thr" (`level_apply`): a matrix product into a zero block is the plain sum over the
  contracted coordinate, a change of float format is the identity, and the mask word widened to 32 bits and read as a
  signed integer is the bit itself.
-/
import proofs.«174387_j50285477101584_1_alg».proof.Proof.Gen.KernelIdeal.Skeleton
import proofs.«174387_j50285477101584_1_alg».proof.Proof.MaskedMlp
import proofs.«174387_j50285477101584_1_alg».proof.Proof.LibSideBySide
import proofs.«174387_j50285477101584_1_alg».proof.Proof.LibMiddleUnit
import Idealize.ShloMosaic.Lib.Pipeline.Value
import Idealize.ShloMosaic.Lib.ValueLayout
import Idealize.ShloMosaic.Lib.ValueIdx

noncomputable section

namespace Cert.KernelIdeal.Level

open Idealize.ShloMosaic Idealize.ShloMosaic.ValueIdx Cert.KernelIdeal Cert.KernelIdeal.Gen Cert.MaskedMlp

variable {F : FTy → Type} [FloatOps F]

/-- The 0/1 mask of the features at or past the threshold, in the tile's layout and format. -/
def keepVec (thr : BitVec 32) : FVec F S256x1024 .bf16 :=
  truncf .bf16 (sitofp .f32 (extui 32 (cmpi .sge (iota .tc S256x1024 32 [1] iota_S256x1024_d1_w32) (broadcast S256x1024 thr)) natLt_1_32)) bitsLt_bf16_f32

/-- The hidden layer before the activation: masked rows times the first weight matrix, plus the first bias. -/
def hiddenVec (thr : BitVec 32) (X : FVec F S256x1024 .bf16) (W1 : FVec F S1024x4096 .bf16) (b1 : Vec F S4096 .f32) : FVec F S256x4096 .f32 :=
  addf (matmul dot_S256x1024_S1024x4096_S256x4096_1_0_0_1_n_n none (mulf X (keepVec thr)) W1 (constant S256x4096 .f32 0x00000000#32))
    (broadcastTo S256x4096 (shapeCast S1x4096 b1 shapeCasts_S4096_S1x4096) broadcasts_S1x4096_S256x4096)

/-- The tanh form of the activation, entry by entry, grouped as the body groups it. -/
def geluVec (z : FVec F S256x4096 .f32) : FVec F S256x4096 .f32 :=
  mulf z (mulf (broadcast S256x4096 (Scalar.ofBits .f32 0x3F000000#32))
    (addf (broadcast S256x4096 (Scalar.ofBits .f32 0x3F800000#32))
      (tanh (mulf (broadcast S256x4096 (Scalar.ofBits .f32 0x3F4C422A#32))
        (addf z (mulf (broadcast S256x4096 (Scalar.ofBits .f32 0x3D372713#32)) (mulf z (mulf z z))))))))

/-- The output layer: activations times the second weight matrix, plus the second bias, as a one-level slab. -/
def outVec (a : FVec F S256x4096 .f32) (W2 : FVec F S4096x128 .bf16) (b2 : Vec F S128 .f32) : FVec F S256x1x128 .f32 :=
  shapeCast S256x1x128 (addf (matmul dot_S256x4096_S4096x128_S256x128_1_0_0_1_n_n none (truncf .bf16 a bitsLt_bf16_f32) W2 (constant S256x128 .f32 0x00000000#32))
    (broadcastTo S256x128 (shapeCast S1x128 b2 shapeCasts_S128_S1x128) broadcasts_S1x128_S256x128)) shapeCasts_S256x128_S256x1x128

/-- One level of the body. -/
def level (thr : BitVec 32) (X : FVec F S256x1024 .bf16) (W1 : FVec F S1024x4096 .bf16) (b1 : Vec F S4096 .f32)
    (W2 : FVec F S4096x128 .bf16) (b2 : Vec F S128 .f32) : FVec F S256x1x128 .f32 :=
  outVec (geluVec (hiddenVec thr X W1 b1)) W2 b2

/-! ## The eight stored values are the eight levels -/

theorem stored0 (v0 : Vec F S256x1024 .bf16) (v2 : Vec F S1024x4096 .bf16) (v4 : Vec F S4096 .f32) (v5 : Vec F S4096x128 .bf16) (v7 : Vec F S128 .f32) :
    k0_pay4 v0 v2 v4 v5 v7 = level 0#32 (k0_pay1 v0) (k0_pay2 v2) v4 (k0_pay3 v5) v7 := rfl
theorem stored1 (v1 : FVec F S256x1024 .bf16) (v3 : FVec F S1024x4096 .bf16) (v4 : Vec F S4096 .f32) (v6 : FVec F S4096x128 .bf16) (v7 : Vec F S128 .f32) :
    k0_pay5 v1 v3 v4 v6 v7 = level 128#32 v1 v3 v4 v6 v7 := rfl
theorem stored2 (v1 : FVec F S256x1024 .bf16) (v3 : FVec F S1024x4096 .bf16) (v4 : Vec F S4096 .f32) (v6 : FVec F S4096x128 .bf16) (v7 : Vec F S128 .f32) :
    k0_pay9 v6 v7 (k0_pay6 v1 v3 v4) (k0_pay7 v1 v3 v4) (k0_pay8 (F := F)) = level 256#32 v1 v3 v4 v6 v7 := rfl
theorem stored3 (v1 : FVec F S256x1024 .bf16) (v3 : FVec F S1024x4096 .bf16) (v4 : Vec F S4096 .f32) (v6 : FVec F S4096x128 .bf16) (v7 : Vec F S128 .f32) :
    k0_pay12 (k0_pay10 v1 v3 v4 v6) (k0_pay11 v7) = level 384#32 v1 v3 v4 v6 v7 := rfl
theorem stored4 (v1 : FVec F S256x1024 .bf16) (v3 : FVec F S1024x4096 .bf16) (v4 : Vec F S4096 .f32) (v6 : FVec F S4096x128 .bf16) (v7 : Vec F S128 .f32) :
    k0_pay13 v1 v3 v4 v6 v7 = level 512#32 v1 v3 v4 v6 v7 := rfl
theorem stored5 (v1 : FVec F S256x1024 .bf16) (v3 : FVec F S1024x4096 .bf16) (v4 : Vec F S4096 .f32) (v6 : FVec F S4096x128 .bf16) (v7 : Vec F S128 .f32) :
    k0_pay15 v3 v4 v6 v7 (k0_pay14 v1) = level 640#32 v1 v3 v4 v6 v7 := rfl
theorem stored6 (v1 : FVec F S256x1024 .bf16) (v3 : FVec F S1024x4096 .bf16) (v4 : Vec F S4096 .f32) (v6 : FVec F S4096x128 .bf16) (v7 : Vec F S128 .f32) :
    k0_pay19 v6 v7 (k0_pay16 v1 v3 v4) (k0_pay17 v1 v3 v4) (k0_pay18 (F := F)) = level 768#32 v1 v3 v4 v6 v7 := rfl
theorem stored7 (v1 : FVec F S256x1024 .bf16) (v3 : FVec F S1024x4096 .bf16) (v4 : Vec F S4096 .f32) (v6 : FVec F S4096x128 .bf16) (v7 : Vec F S128 .f32) :
    k0_pay20 v1 v3 v4 v6 v7 = level 896#32 v1 v3 v4 v6 v7 := rfl

/-! ## A level read at an entry, over the extended reals -/

/-- The mask at (p, e): the comparison word of e against the threshold, widened and read as a signed integer. -/
theorem keepVec_apply (thr : BitVec 32) (p : Fin 256) (e : Fin 1024) :
    keepVec (F := Ideal) thr (ix2 p e)
      = ((((IntOp.cmpi .sge (BitVec.ofNat 32 e.val) thr).setWidth 32).toInt : ℝ) : EReal) := by
  unfold keepVec
  show ((((IntOp.cmpi .sge (iota .tc S256x1024 32 [1] iota_S256x1024_d1_w32 (ix2 p e)) thr).setWidth 32).toInt : ℝ) : EReal) = _
  rw [iota_single_apply]

/-- The hidden layer at (p, h): the sum over the features of row p of input · mask · weight, plus the bias at h. -/
theorem hiddenVec_apply (thr : BitVec 32) (X : FVec Ideal S256x1024 .bf16) (W1 : FVec Ideal S1024x4096 .bf16) (b1 : Vec Ideal S4096 .f32)
    (p : Fin 256) (h : Fin 4096) :
    hiddenVec (F := Ideal) thr X W1 b1 (ix2 p h)
      = (∑ e : Fin 1024, X (ix2 p e) * keepVec (F := Ideal) thr (ix2 p e) * W1 (ix2 e h)) + b1 (ix1 h) := by
  unfold hiddenVec
  rw [addf_apply, SideBySide.kernelProduct_apply dot_S256x1024_S1024x4096_S256x4096_1_0_0_1_n_n rfl none _ _ p h,
    broadcastTo_1b_ab_apply, shapeCast_a_1a_apply]
  rfl

/-- The activation at an entry is the scalar activation of the entry. -/
theorem geluVec_apply (z : FVec Ideal S256x4096 .f32) (i : S256x4096.Idx) : geluVec (F := Ideal) z i = gelu (z i) := rfl

/-- The output layer at (p, ·, q): the sum over the hidden units of activation · weight, plus the bias at q. -/
theorem outVec_apply (a : FVec Ideal S256x4096 .f32) (W2 : FVec Ideal S4096x128 .bf16) (b2 : Vec Ideal S128 .f32)
    (p : Fin 256) (u : Fin 1) (q : Fin 128) :
    outVec (F := Ideal) a W2 b2 (ix3 p u q) = (∑ h : Fin 4096, a (ix2 p h) * W2 (ix2 h q)) + b2 (ix1 q) := by
  unfold outVec
  rw [Cert.MiddleUnit.shapeCast_ab_a1b_apply, addf_apply,
    SideBySide.kernelProduct_apply dot_S256x4096_S4096x128_S256x128_1_0_0_1_n_n rfl none _ _ p q,
    broadcastTo_1b_ab_apply, shapeCast_a_1a_apply]
  rfl

/-- The keep factor of the body at the threshold l·128 is the specification's. -/
theorem keep_eq (l : Fin 8) (e : Fin 1024) :
    ((((IntOp.cmpi .sge (BitVec.ofNat 32 e.val) (IntOp.muli (BitVec.ofNat 32 l.val) 128#32)).setWidth 32).toInt : ℝ) : EReal) = keep l e := by
  unfold keep keepWord
  rw [Idealize.ShloMosaic.toInt_setWidth_bit]
  norm_cast

/-- ONE LEVEL AT AN ENTRY: with the threshold l·128, entry (p, ·, q) is the perceptron's output q for row p at level l. -/
theorem level_apply (l : Fin 8) (X : FVec Ideal S256x1024 .bf16) (W1 : FVec Ideal S1024x4096 .bf16) (b1 : Vec Ideal S4096 .f32)
    (W2 : FVec Ideal S4096x128 .bf16) (b2 : Vec Ideal S128 .f32) (p : Fin 256) (u : Fin 1) (q : Fin 128) :
    level (F := Ideal) (IntOp.muli (BitVec.ofNat 32 l.val) 128#32) X W1 b1 W2 b2 (ix3 p u q)
      = rowOut (fun e => X (ix2 p e)) l W1 b1 W2 b2 q := by
  unfold level rowOut
  rw [outVec_apply]
  refine congrArg (· + b2 (ix1 q)) (Finset.sum_congr rfl fun h _ => ?_)
  rw [geluVec_apply, hiddenVec_apply]
  refine congrArg (fun s => gelu (s + b1 (ix1 h)) * W2 (ix2 h q)) (Finset.sum_congr rfl fun e _ => ?_)
  rw [keepVec_apply, keep_eq]

end Cert.KernelIdeal.Level

end
-- ==== Proof.KernelTile.lean ====
/-
  What the body leaves in the output tile.

  The body fills the [256, 8, 128] tile by eight stores, one per level: level l's slab [256, 1, 128] goes to the
  rectangle at offset (0, l, 0). Each slab is `level` at the threshold 128·l of the tile's 256 rows (the body's loads
  read the whole staging buffers, and its casts of a buffer to its own shape are the identity), so entry (p, l, q) of
  the tile is the perceptron's output q for row p at level l: the tile is `mlpTile` of the five blocks the body loads.
-/
import proofs.«174387_j50285477101584_1_alg».proof.Proof.Gen.KernelIdeal.Frame
import proofs.«174387_j50285477101584_1_alg».proof.Proof.KernelLevel

set_option maxRecDepth 16384

noncomputable section

namespace Cert.KernelIdeal.Tile

open Idealize.ShloMosaic Idealize.ShloMosaic.ValueIdx Cert.KernelIdeal Cert.KernelIdeal.Gen Cert.KernelIdeal.Level Cert.MaskedMlp

theorem zeros2 : (![0, 0] : Fin 2 → Nat) = fun _ => 0 := funext fun a => by fin_cases a <;> rfl
theorem zeros1 : (![0] : Fin 1 → Nat) = fun _ => 0 := funext fun a => by fin_cases a <;> rfl

/-- Level l's slab, read at a slab index, is the tile function at the index the slab's rectangle gives it: the row and
    the output keep their coordinates, and the unit middle coordinate lands on l. -/
theorem slab_eq (l : Fin 8) (thr : BitVec 32) (hthr : thr = IntOp.muli (BitVec.ofNat 32 l.val) 128#32)
    (off : Fin 3 → Nat) (hoff : off = ![0, l.val, 0]) (inb : ∀ a, off a + S256x1x128.size a ≤ S256x8x128.size a)
    (X : FVec Ideal S256x1024 .bf16) (W1 : FVec Ideal S1024x4096 .bf16) (b1 : Vec Ideal S4096 .f32)
    (W2 : FVec Ideal S4096x128 .bf16) (b2 : Vec Ideal S128 .f32)
    (x : (Rect.unit (s := S256x8x128) off S256x1x128.size inb).shape.Idx) :
    level (F := Ideal) thr X W1 b1 W2 b2 x
      = mlpTile X W1 b1 W2 b2 ((Rect.unit (s := S256x8x128) off S256x1x128.size inb).emb x) := by
  subst hthr hoff
  obtain ⟨p, u, q, rfl⟩ : ∃ (p : Fin 256) (u : Fin 1) (q : Fin 128), x = ix3 p u q := ⟨x 0, x 1, x 2, eq_ix3 x⟩
  rw [level_apply]
  unfold mlpTile
  have h0 : ((Rect.unit (s := S256x8x128) ![0, l.val, 0] S256x1x128.size inb).emb (ix3 p u q)) 0 = p :=
    Fin.ext (by show 0 + 1 * p.val = p.val; omega)
  have h1 : ((Rect.unit (s := S256x8x128) ![0, l.val, 0] S256x1x128.size inb).emb (ix3 p u q)) 1 = l :=
    Fin.ext (by show l.val + 1 * u.val = l.val; omega)
  have h2 : ((Rect.unit (s := S256x8x128) ![0, l.val, 0] S256x1x128.size inb).emb (ix3 p u q)) 2 = q :=
    Fin.ext (by show 0 + 1 * q.val = q.val; omega)
  rw [h0, h1, h2]

/-- THE TILE: what the body's eight stores leave is `mlpTile` of the blocks it loads. -/
theorem tile_eq (x0 : Vec Ideal S256x1024 .bf16) (x1 : Vec Ideal S1024x4096 .bf16) (x2 : Vec Ideal S4096 .f32)
    (x3 : Vec Ideal S4096x128 .bf16) (x4 : Vec Ideal S128 .f32) :
    out0_5 (F := Ideal) x0 x1 x2 x3 x4 = mlpTile x0 x1 x2 x3 x4 := by
  funext y
  unfold out0_5
  simp only [View.ld_unit_zero (S := S256x1024) zeros2, View.ld_unit_zero (S := S1024x4096) zeros2,
    View.ld_unit_zero (S := S4096) zeros1, View.ld_unit_zero (S := S4096x128) zeros2, View.ld_unit_zero (S := S128) zeros1]
  rw [stored0, stored1, stored2, stored3, stored4, stored5, stored6, stored7]
  simp only [k0_pay1, k0_pay2, k0_pay3, shapeCast_self]
  refine View.canon_apply_of_pieces (Val := Elt Ideal) (S := S256x8x128) (e := .f32) (mlpTile x0 x1 x2 x3 x4) _ ?_ y (cover0_5 _ _ _ _ _ _ _ _ y)
  intro pc hpc
  simp only [List.mem_cons, List.mem_nil_iff, or_false] at hpc
  rcases hpc with rfl | rfl | rfl | rfl | rfl | rfl | rfl | rfl
  · exact slab_eq 7 896#32 (by decide) ![0, 7, 0] rfl inb_S256x8x128_S256x1x128_0_7_0 x0 x1 x2 x3 x4
  · exact slab_eq 6 768#32 (by decide) ![0, 6, 0] rfl inb_S256x8x128_S256x1x128_0_6_0 x0 x1 x2 x3 x4
  · exact slab_eq 5 640#32 (by decide) ![0, 5, 0] rfl inb_S256x8x128_S256x1x128_0_5_0 x0 x1 x2 x3 x4
  · exact slab_eq 4 512#32 (by decide) ![0, 4, 0] rfl inb_S256x8x128_S256x1x128_0_4_0 x0 x1 x2 x3 x4
  · exact slab_eq 3 384#32 (by decide) ![0, 3, 0] rfl inb_S256x8x128_S256x1x128_0_3_0 x0 x1 x2 x3 x4
  · exact slab_eq 2 256#32 (by decide) ![0, 2, 0] rfl inb_S256x8x128_S256x1x128_0_2_0 x0 x1 x2 x3 x4
  · exact slab_eq 1 128#32 (by decide) ![0, 1, 0] rfl inb_S256x8x128_S256x1x128_0_1_0 x0 x1 x2 x3 x4
  · exact slab_eq 0 0#32 (by decide) ![0, 0, 0] rfl inb_S256x8x128_S256x1x128_0_0_0 x0 x1 x2 x3 x4

end Cert.KernelIdeal.Tile

end
-- ==== Proof.KernelRows.lean ====
/-
  The kernel's result array, and its run read at the extended reals.

  The grid has 16 points; point t stages rows 256·t … 256·t + 255 of the 4096 × 1024 input, the two weight matrices
  and the two bias vectors whole, and writes the [256, 8, 128] tile back to rows 256·t … 256·t + 255 of the
  [4096, 8, 128] result. The tile is `mlpTile` of the staged blocks, a row of the tile depends on its own row of the
  input block only, and the blocks tile the result, so after the run the result is `mlpRows` of the arrays the
  region finds.

  Before the region the host lays the four-axis input out as 4096 rows of 1024 features and narrows it and the weight
  matrices to a shorter float format, which over the extended reals changes nothing; after it the host lays the
  [4096, 8, 128] result out over four axes again. Both layouts keep the row-major position, so entry (b, p, l, q) of
  what the program returns is output q of row 256·b + p at level l, and feature e of that row is entry
  (b, p, e / 128, e % 128) of the input: the returned array is `mlp` of the five arguments.
-/
import proofs.«174387_j50285477101584_1_alg».proof.Proof.Gen.KernelIdeal.Frame
import proofs.«174387_j50285477101584_1_alg».proof.Proof.KernelTile
import Idealize.ShloMosaic.Lib.Pipeline.Value
import Idealize.ShloMosaic.Lib.StableHlo.Run
import Idealize.ShloMosaic.Lib.Tactic

set_option maxRecDepth 16384

noncomputable section

namespace Cert.KernelIdeal.Rows

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Tile Cert.MaskedMlp

variable (m : (ℓ : Loc nD τ sig) → Buf (Elt Ideal) ℓ) (ρ : Dev nD → PrngReg)

/-! ## The arrays the region finds -/

/-- The input as 4096 rows of 1024 features. -/
abbrev rowsIn (c : Dev nD) : Vec Ideal S4096x1024 .bf16 := V m c main_v1
/-- The first weight matrix. -/
abbrev w1In (c : Dev nD) : Vec Ideal S1024x4096 .bf16 := V m c main_v2
/-- The first bias. -/
abbrev b1In (c : Dev nD) : Vec Ideal S4096 .f32 := V m c main_arg2
/-- The second weight matrix. -/
abbrev w2In (c : Dev nD) : Vec Ideal S4096x128 .bf16 := V m c main_v3
/-- The second bias. -/
abbrev b2In (c : Dev nD) : Vec Ideal S128 .f32 := V m c main_arg4

/-- The printed index maps over the 16 points: the row windows move with the point, the others stay at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 3) = t.val ∧ win0_5.index t (1 : Fin 3) = 0 ∧ win0_5.index t (2 : Fin 3) = 0 :=
  (by decide +kernel : ∀ t : Fin grid0.N, _)

/-- The first weight matrix is staged whole at every point. -/
theorem block_w1 (c : Dev nD) (t : Fin cfg0.N) : (iblk m c 1 t : Vec Ideal S1024x4096 .bf16) = w1In m c := by
  obtain ⟨-, -, e0, e1, -⟩ := idx_facts t
  funext x
  show V m c main_v2 (((cfg0.win 1).blk t).view.emb x) = V m c main_v2 x
  refine congrArg (V m c main_v2) (funext fun a => Fin.ext ?_)
  match a with
  | ⟨0, _⟩ => show win0_1.index t (0 : Fin 2) * 1024 + 1 * (x 0).val = (x 0).val; omega
  | ⟨1, _⟩ => show win0_1.index t (1 : Fin 2) * 4096 + 1 * (x 1).val = (x 1).val; omega

/-- The first bias is staged whole at every point. -/
theorem block_b1 (c : Dev nD) (t : Fin cfg0.N) : (iblk m c 2 t : Vec Ideal S4096 .f32) = b1In m c := by
  obtain ⟨-, -, -, -, e0, -⟩ := idx_facts t
  funext x
  show V m c main_arg2 (((cfg0.win 2).blk t).view.emb x) = V m c main_arg2 x
  refine congrArg (V m c main_arg2) (funext fun a => Fin.ext ?_)
  match a with
  | ⟨0, _⟩ => show win0_2.index t (0 : Fin 1) * 4096 + 1 * (x 0).val = (x 0).val; omega

/-- The second weight matrix is staged whole at every point. -/
theorem block_w2 (c : Dev nD) (t : Fin cfg0.N) : (iblk m c 3 t : Vec Ideal S4096x128 .bf16) = w2In m c := by
  obtain ⟨-, -, -, -, -, e0, e1, -⟩ := idx_facts t
  funext x
  show V m c main_v3 (((cfg0.win 3).blk t).view.emb x) = V m c main_v3 x
  refine congrArg (V m c main_v3) (funext fun a => Fin.ext ?_)
  match a with
  | ⟨0, _⟩ => show win0_3.index t (0 : Fin 2) * 4096 + 1 * (x 0).val = (x 0).val; omega
  | ⟨1, _⟩ => show win0_3.index t (1 : Fin 2) * 128 + 1 * (x 1).val = (x 1).val; omega

/-- The second bias is staged whole at every point. -/
theorem block_b2 (c : Dev nD) (t : Fin cfg0.N) : (iblk m c 4 t : Vec Ideal S128 .f32) = b2In m c := by
  obtain ⟨-, -, -, -, -, -, -, e0, -⟩ := idx_facts t
  funext x
  show V m c main_arg4 (((cfg0.win 4).blk t).view.emb x) = V m c main_arg4 x
  refine congrArg (V m c main_arg4) (funext fun a => Fin.ext ?_)
  match a with
  | ⟨0, _⟩ => show win0_4.index t (0 : Fin 1) * 128 + 1 * (x 0).val = (x 0).val; omega

/-! ## What a point writes back, and the result array -/

/-- WHAT POINT t WRITES BACK is block t of `mlpRows` of the arrays the region finds: row p of the staged input block is
    row 256·t + p of the input, which is the row of the result the tile's row p is written to. -/
theorem flushed_eq (c : Dev nD) (t : Fin cfg0.N) :
    (dats m 0 c).flushed 5 t
      = ((cfg0.win 5).blk t).view.read (Elt Ideal) (mlpRows (rowsIn m c) (w1In m c) (b1In m c) (w2In m c) (b2In m c)) := by
  show (cfg0.win 5).cut (grid0.coords t) ((dats m 0 c).after 5 t) = _
  rw [after0_5, tile_eq, block_w1, block_b1, block_w2, block_b2]
  obtain ⟨r0, r1, -, -, -, -, -, -, o0, o1, o2⟩ := idx_facts t
  funext y
  show mlpTile (iblk m c 0 t) (w1In m c) (b1In m c) (w2In m c) (b2In m c) y
    = mlpRows (rowsIn m c) (w1In m c) (b1In m c) (w2In m c) (b2In m c) (((cfg0.win 5).blk t).view.emb y)
  unfold mlpTile mlpRows
  have hrow : ∀ e : Fin 1024, (iblk m c 0 t : Vec Ideal S256x1024 .bf16) (ix2 (y 0) e)
      = rowsIn m c (ix2 ((((cfg0.win 5).blk t).view.emb y) 0) e) := fun e => by
    show V m c main_v1 (((cfg0.win 0).blk t).view.emb (ix2 (y 0) e)) = V m c main_v1 (ix2 ((((cfg0.win 5).blk t).view.emb y) 0) e)
    refine congrArg (V m c main_v1) (funext fun a => Fin.ext ?_)
    match a with
    | ⟨0, _⟩ => show win0_0.index t (0 : Fin 2) * 256 + 1 * (y 0).val = win0_5.index t (0 : Fin 3) * 256 + 1 * (y 0).val; omega
    | ⟨1, _⟩ => show win0_0.index t (1 : Fin 2) * 1024 + 1 * e.val = e.val; omega
  have hl : (((cfg0.win 5).blk t).view.emb y) 1 = y 1 :=
    Fin.ext (by show win0_5.index t (1 : Fin 3) * 8 + 1 * (y 1).val = (y 1).val; omega)
  have hq : (((cfg0.win 5).blk t).view.emb y) 2 = y 2 :=
    Fin.ext (by show win0_5.index t (2 : Fin 3) * 128 + 1 * (y 2).val = (y 2).val; omega)
  rw [hl, hq]
  exact congrArg (fun f => rowOut f (y 1) (w1In m c) (b1In m c) (w2In m c) (b2In m c) (y 2)) (funext hrow)

/-- An index of the result is in point t's block iff each coordinate is in the block's range on its axis. -/
theorem mem_block (t : Fin cfg0.N) (i : S4096x8x128.Idx) :
    i ∈ ((cfg0.win 5).blk t).view.set
      ↔ ∀ a : Fin 3, win0_5.index t a * S256x8x128.size a ≤ (i a).val ∧ (i a).val < win0_5.index t a * S256x8x128.size a + S256x8x128.size a := by
  show i ∈ ((View.whole main_v4).slice (win0_5.rect t)).set ↔ _
  rw [View.set_slice_whole, Rect.mem_set_unit]
  exact Iff.rfl

/-- Row R of the result is in the block of point R / 256, which writes back. -/
theorem covered (i : S4096x8x128.Idx) :
    ∃ t : Fin cfg0.N, (cfg0.win 5).flush t = true ∧ i ∈ ((cfg0.win 5).blk t).view.set := by
  have hN : cfg0.N = 16 := N_0
  have h0 : (i 0).val < 4096 := (i 0).isLt
  have h1 : (i 1).val < 8 := (i 1).isLt
  have h2 : (i 2).val < 128 := (i 2).isLt
  have ht : (i 0).val / 256 < cfg0.N := by rw [hN]; omega
  obtain ⟨-, -, -, -, -, -, -, -, o0, o1, o2⟩ := idx_facts ⟨(i 0).val / 256, ht⟩
  refine ⟨⟨(i 0).val / 256, ht⟩, flush0_5 _, ?_⟩
  rw [mem_block]
  intro a
  match a with
  | ⟨0, _⟩ =>
    show win0_5.index ⟨(i 0).val / 256, ht⟩ (0 : Fin 3) * 256 ≤ (i 0).val ∧ (i 0).val < win0_5.index ⟨(i 0).val / 256, ht⟩ (0 : Fin 3) * 256 + 256
    rw [o0]; show (i 0).val / 256 * 256 ≤ (i 0).val ∧ (i 0).val < (i 0).val / 256 * 256 + 256; omega
  | ⟨1, _⟩ =>
    show win0_5.index ⟨(i 0).val / 256, ht⟩ (1 : Fin 3) * 8 ≤ (i 1).val ∧ (i 1).val < win0_5.index ⟨(i 0).val / 256, ht⟩ (1 : Fin 3) * 8 + 8
    rw [o1]; omega
  | ⟨2, _⟩ =>
    show win0_5.index ⟨(i 0).val / 256, ht⟩ (2 : Fin 3) * 128 ≤ (i 2).val ∧ (i 2).val < win0_5.index ⟨(i 0).val / 256, ht⟩ (2 : Fin 3) * 128 + 128
    rw [o2]; omega

/-- THE RESULT ARRAY after the run is `mlpRows` of the arrays the region finds. -/
theorem result_rows (c : Dev nD) :
    (dats m 0 c).arrAt 5 cfg0.N = mlpRows (rowsIn m c) (w1In m c) (b1In m c) (w2In m c) (b2In m c) :=
  (dats m 0 c).arrAt_eq_of_cover 5 (mlpRows (rowsIn m c) (w1In m c) (b1In m c) (w2In m c) (b2In m c))
    (fun t _ => flushed_eq m c t) covered

/-! ## The host operations before the region -/

/-- The region's input rows are the four-axis input laid out as 4096 × 1024, narrowed. -/
theorem rowsIn_eq (c : Dev nD) :
    rowsIn m c = truncf (F := Ideal) .bf16 (shapeCast S4096x1024 (m ((c : Thread nD τ).loc main_arg0) : Vec Ideal S16x256x8x128 .f32) shapeCasts_S16x256x8x128_S4096x1024 : FVec Ideal S4096x1024 .f32) bitsLt_bf16_f32 := by
  show StableHlo.after hostOps0 (fun b => m (c, b)) (Proc.devRef .tc main_v1) = _
  after_results
  rfl

/-- The region's first weight matrix is the argument, narrowed. -/
theorem w1In_eq (c : Dev nD) : w1In m c = truncf (F := Ideal) .bf16 (m ((c : Thread nD τ).loc main_arg1) : FVec Ideal S1024x4096 .f32) bitsLt_bf16_f32 := by
  show StableHlo.after hostOps0 (fun b => m (c, b)) (Proc.devRef .tc main_v2) = _
  after_results

/-- The region's second weight matrix is the argument, narrowed. -/
theorem w2In_eq (c : Dev nD) : w2In m c = truncf (F := Ideal) .bf16 (m ((c : Thread nD τ).loc main_arg3) : FVec Ideal S4096x128 .f32) bitsLt_bf16_f32 := by
  show StableHlo.after hostOps0 (fun b => m (c, b)) (Proc.devRef .tc main_v3) = _
  after_results

/-- Row 256·b + p of the 4096 × 1024 layout at feature e is entry (b, p, e / 128, e % 128) of the four-axis input. -/
theorem rowsIn_apply (c : Dev nD) (b : Fin 16) (p : Fin 256) (e : Fin 1024) (R : Fin 4096) (hR : R.val = b.val * 256 + p.val) :
    rowsIn m c (ix2 R e) = m ((c : Thread nD τ).loc main_arg0) (featureAt b p e) := by
  rw [rowsIn_eq]
  show shapeCast S4096x1024 (m ((c : Thread nD τ).loc main_arg0) : Vec Ideal S16x256x8x128 .f32) shapeCasts_S16x256x8x128_S4096x1024 (ix2 R e) = _
  refine shapeCast_apply (s := S16x256x8x128) (t := S4096x1024) _ _ _ _ ?_
  show (S16x256x8x128.rowMajor (featureAt b p e)).val = (S4096x1024.rowMajor (ix2 R e)).val
  rw [Shape.rowMajor_val_four, Shape.rowMajor_val_two]
  show ((b.val * 256 + p.val) * 8 + e.val / 128) * 128 + e.val % 128 = R.val * 1024 + e.val
  have := e.isLt
  omega

/-! ## The layout after the region, and the run -/

/-- The region's first weight matrix is the argument: narrowing changes no extended real. -/
theorem w1In_arg (c : Dev nD) : w1In m c = m ((c.tc : Thread nD τ).loc main_arg1) := w1In_eq m c

/-- The region's second weight matrix is the argument. -/
theorem w2In_arg (c : Dev nD) : w2In m c = m ((c.tc : Thread nD τ).loc main_arg3) := w2In_eq m c

/-- WHAT THE PROGRAM RETURNS: the result rows laid out over four axes are `mlp` of the five arguments. Entry
    (b, p, l, q) has the row-major position of entry (256·b + p, l, q) of the result rows. -/
theorem returned_eq (c : Dev nD) :
    Pipeline.afterTail₀ cfgs (dats m) 0 (V0 m) [hostOps1] c main_v5
      = mlp (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Pipeline.afterTail₀
  show StableHlo.after hostOps1 _ (Proc.devRef .tc main_v5) = _
  after_results
  have hA : Pipeline.withArrays spec0 c (V0 m c) (fun w => (dats m 0 c).arrAt w cfg0.N) (Proc.devRef .tc main_v4)
      = (dats m 0 c).arrAt 5 cfg0.N := Pipeline.withArrays_arr spec0 launch0.win.arr_inj c _ _ 5
  funext i
  show shapeCast S16x256x8x128 (Pipeline.withArrays spec0 c (V0 m c) (fun w => (dats m 0 c).arrAt w cfg0.N) (Proc.devRef .tc main_v4))
    shapeCasts_S4096x8x128_S16x256x8x128 i = _
  rw [hA, result_rows]
  obtain ⟨b, p, l, q, rfl⟩ : ∃ (b : Fin 16) (p : Fin 256) (l : Fin 8) (q : Fin 128), i = ix4 b p l q :=
    ⟨i 0, i 1, i 2, i 3, eq_ix4 i⟩
  have hR : b.val * 256 + p.val < 4096 := by have := b.isLt; have := p.isLt; omega
  refine (shapeCast_apply (s := S4096x8x128) (t := S16x256x8x128) _ _ (ix4 b p l q) (ix3 ⟨b.val * 256 + p.val, hR⟩ l q) ?_).trans ?_
  · show (S4096x8x128.rowMajor (ix3 ⟨b.val * 256 + p.val, hR⟩ l q)).val = (S16x256x8x128.rowMajor (ix4 b p l q)).val
    rw [Shape.rowMajor_val_three, Shape.rowMajor_val_four]
    rfl
  · unfold mlpRows mlp
    show rowOut (fun e => rowsIn m c (ix2 ⟨b.val * 256 + p.val, hR⟩ e)) l (w1In m c) (b1In m c) (w2In m c) (b2In m c) q
      = rowOut (fun e => m ((c.tc : Thread nD τ).loc main_arg0) (featureAt b p e)) l (m ((c.tc : Thread nD τ).loc main_arg1))
          (m ((c.tc : Thread nD τ).loc main_arg2)) (m ((c.tc : Thread nD τ).loc main_arg3)) (m ((c.tc : Thread nD τ).loc main_arg4)) q
    rw [w1In_arg, w2In_arg, show b1In m c = m ((c.tc : Thread nD τ).loc main_arg2) from V_main_arg2 m c,
      show b2In m c = m ((c.tc : Thread nD τ).loc main_arg4) from V_main_arg4 m c]
    exact congrArg (fun f => rowOut f l (m ((c.tc : Thread nD τ).loc main_arg1)) (m ((c.tc : Thread nD τ).loc main_arg2))
      (m ((c.tc : Thread nD τ).loc main_arg3)) (m ((c.tc : Thread nD τ).loc main_arg4)) q)
      (funext fun e => rowsIn_apply m c b p e ⟨b.val * 256 + p.val, hR⟩ rfl)

/-- THE RUN, READ: every weakly fair execution of the idealized kernel ends with the returned array at `mlp` of the five
    arguments and the arguments as launched. -/
theorem run : θ_run defs (onTc (τ := τ) (main (F := Ideal))) ⟨m, fun _ => 0, ρ⟩ (fun r => ∀ c : Dev nD,
      r.2.mem ((c.tc : Thread nD τ).loc main_v5)
        = mlp (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v5 (Pipeline.mem_restRefs_of main_v5 (by decide) (by decide))).trans (returned_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩)
    (run_main m ρ)

end Cert.KernelIdeal.Rows

end
-- ==== Proof.ReferenceValue.lean ====
/-
  The reference's result, read entry by entry over the extended reals.

  The reference lays the input out as [16, 256, 1024], multiplies it by the [8, 1024] mask of the comparison
  e ≥ l·128 (converted from one bit to a float), contracts the 1024 features against the first weight matrix and adds
  the first bias, applies the tanh form of the activation with its products grouped (½·z)·(1 + tanh(…)) and
  ((k·z)·z)·z, contracts the 4096 hidden units against the second weight matrix and adds the second bias. Entry
  (b, p, l, q) of its result is therefore output q of the perceptron for row (b, p) at level l: the specification's
  `mlp`, the two groupings of the activation being equal.
-/
import proofs.«174387_j50285477101584_1_alg».proof.Proof.Gen.ReferenceIdeal.Read
import proofs.«174387_j50285477101584_1_alg».proof.Proof.MaskedMlp
import Idealize.ShloMosaic.Lib.ValueIdx

noncomputable section

namespace Cert.ReferenceIdeal.RefValue

open Idealize.ShloMosaic Idealize.ShloMosaic.ValueIdx Cert.ReferenceIdeal Cert.ReferenceIdeal.Gen Cert.ReferenceIdeal.Read Cert.MaskedMlp

variable (x0 : (⟨S16x256x8x128, .f32⟩ : BufTy).Contents (Elt Ideal)) (x1 : (⟨S1024x4096, .f32⟩ : BufTy).Contents (Elt Ideal))
  (x2 : (⟨S4096, .f32⟩ : BufTy).Contents (Elt Ideal)) (x3 : (⟨S4096x128, .f32⟩ : BufTy).Contents (Elt Ideal))
  (x4 : (⟨S128, .f32⟩ : BufTy).Contents (Elt Ideal))

/-- The masked input at (b, p, l, e): feature e of row (b, p) times the keep factor of e at level l. -/
theorem masked_apply (j : S16x256x8x1024.Idx) :
    val_main_v15 (F := Ideal) x0 j = x0 (featureAt (j 0) (j 1) (j 3)) * keep (j 2) (j 3) := by
  rw [val_main_v15_apply, val_main_v13_apply, val_main_v11_apply, val_main_v0_apply, val_main_v14_apply, val_main_v12_apply,
    val_main_v10_apply, val_main_v9_apply, val_main_v7_apply, val_main_v2_apply, val_main_v1_apply, val_main_v8_apply,
    val_main_v6_apply, val_main_v5_apply, val_main_v3_apply, val_main_v4_apply, val_main_c_apply]
  have h0 : (j 0).val < 16 := (j 0).isLt
  have h1 : (j 1).val < 256 := (j 1).isLt
  have h3 : (j 3).val < 1024 := (j 3).isLt
  have hx : idx_main_v0 (idx_main_v11 (idx_main_v13 j)) = featureAt (j 0) (j 1) (j 3) := funext fun a => Fin.ext (by
    match a with
    | ⟨0, _⟩ => show (((j 0).val * 256 + (j 1).val) * 1024 + (j 3).val) / 262144 = (j 0).val; omega
    | ⟨1, _⟩ => show (((j 0).val * 256 + (j 1).val) * 1024 + (j 3).val) / 1024 % 256 = (j 1).val; omega
    | ⟨2, _⟩ => show (((j 0).val * 256 + (j 1).val) * 1024 + (j 3).val) / 128 % 8 = (j 3).val / 128; omega
    | ⟨3, _⟩ => show (((j 0).val * 256 + (j 1).val) * 1024 + (j 3).val) % 128 = (j 3).val % 128; omega)
  rw [hx]
  rfl

/-- The hidden layer before the activation at (b, p, l, h). -/
theorem hidden_apply (j : S16x256x8x4096.Idx) :
    val_main_v19 (F := Ideal) x0 x1 x2 j
      = (∑ e : Fin 1024, x0 (featureAt (j 0) (j 1) e) * keep (j 2) e * x1 (ix2 e (j 3))) + x2 (ix1 (j 3)) := by
  rw [val_main_v19_apply, val_main_v16_apply, val_main_v18_apply, val_main_v17_apply]
  have hb : idx_main_v17 (idx_main_v18 j) = ix1 (j 3) := funext fun a => by match a with | ⟨0, _⟩ => rfl
  rw [hb]
  refine congrArg (· + x2 (ix1 (j 3))) (Finset.sum_congr rfl fun e _ => ?_)
  have hr : ridx_main_v16 j e = ix2 e (j 3) := funext fun a => by match a with | ⟨0, _⟩ => rfl | ⟨1, _⟩ => rfl
  rw [masked_apply, hr]
  rfl

/-- The activation at an entry is the scalar activation, in the reference's grouping, of the hidden entry. -/
theorem activation_apply (j : S16x256x8x4096.Idx) :
    val_main_v32 (F := Ideal) x0 x1 x2 j = gelu' (val_main_v19 (F := Ideal) x0 x1 x2 j) := by
  rw [val_main_v32_apply, val_main_v21_apply, val_main_v31_apply, val_main_v20_apply, val_main_cst_apply, val_main_v30_apply,
    val_main_cst_2_apply, val_main_v29_apply, val_main_v28_apply, val_main_v27_apply, val_main_cst_1_apply, val_main_v26_apply,
    val_main_v25_apply, val_main_v24_apply, val_main_v23_apply, val_main_v22_apply, val_main_cst_0_apply]
  rfl

/-- THE REFERENCE'S RESULT is the specification's. -/
theorem result_eq : val_main_v36 (F := Ideal) x0 x1 x2 x3 x4 = mlp x0 x1 x2 x3 x4 := by
  funext i
  rw [val_main_v36_apply, val_main_v33_apply, val_main_v35_apply, val_main_v34_apply]
  have hb : idx_main_v34 (idx_main_v35 i) = ix1 (i 3) := funext fun a => by match a with | ⟨0, _⟩ => rfl
  rw [hb]
  unfold mlp rowOut
  refine congrArg (· + x4 (ix1 (i 3))) (Finset.sum_congr rfl fun h _ => ?_)
  have hr : ridx_main_v33 i h = ix2 h (i 3) := funext fun a => by match a with | ⟨0, _⟩ => rfl | ⟨1, _⟩ => rfl
  rw [activation_apply, gelu'_eq, hidden_apply, hr]
  rfl

end Cert.ReferenceIdeal.RefValue

end
-- ==== Proof.lean ====
/-
  The kernel computes, for each of the 16·256 rows of 8·128 features and each of eight levels l, a two-layer perceptron
  of the row with its first 128·l features zeroed: hidden layer of 4096 units with the tanh form of the GELU
  activation, output layer of 128 units. It does so tile by tile: 256 rows at a grid point, the eight levels one after
  the other inside the body, with the input and the weight matrices narrowed to a shorter float format. The reference
  computes the same with two contractions over the whole four-axis array.

  Over the extended reals both results are one function of the five arguments, `Cert.MaskedMlp.mlp`: a change of float
  format is the identity, a matrix product accumulated into a zero block and the host's contraction are the same plain
  sum over the contracted coordinate, the two mask spellings (a comparison bit widened and read signed; the bit read
  unsigned) are the same 0 or 1, the layouts [16, 256, 8, 128], [4096, 1024], [16, 256, 1024] and [4096, 8, 128] keep
  row-major positions, and the two groupings of the activation's products are equal by commutativity and
  associativity of the product alone. Nothing asks an entry to be finite, so the precondition is not opened.

  The three frames are the generated ones (the reference's is its generated run with the result dropped); the
  idealization rewrote nothing, so there is nothing to preserve.
-/
import proofs.«174387_j50285477101584_1_alg».proof.Defs
import proofs.«174387_j50285477101584_1_alg».proof.Proof.Gen.Kernel
import proofs.«174387_j50285477101584_1_alg».proof.Proof.Gen.Kernel.Skeleton
import proofs.«174387_j50285477101584_1_alg».proof.Proof.Gen.Kernel.Launch
import proofs.«174387_j50285477101584_1_alg».proof.Proof.Gen.Kernel.Points
import proofs.«174387_j50285477101584_1_alg».proof.Proof.Gen.Kernel.Frame
import proofs.«174387_j50285477101584_1_alg».proof.Proof.Gen.KernelIdeal
import proofs.«174387_j50285477101584_1_alg».proof.Proof.Gen.KernelIdeal.Skeleton
import proofs.«174387_j50285477101584_1_alg».proof.Proof.Gen.KernelIdeal.Launch
import proofs.«174387_j50285477101584_1_alg».proof.Proof.Gen.KernelIdeal.Points
import proofs.«174387_j50285477101584_1_alg».proof.Proof.Gen.KernelIdeal.Frame
import proofs.«174387_j50285477101584_1_alg».proof.Proof.Gen.ReferenceIdeal
import proofs.«174387_j50285477101584_1_alg».proof.Proof.Gen.Pre_finite_inputs
import proofs.«174387_j50285477101584_1_alg».proof.Proof.Gen.ReferenceIdeal.Run
import proofs.«174387_j50285477101584_1_alg».proof.Proof.Gen.ReferenceIdeal.Read
import proofs.«174387_j50285477101584_1_alg».proof.Proof.KernelRows
import proofs.«174387_j50285477101584_1_alg».proof.Proof.ReferenceValue
import Idealize.ShloMosaic.Adequacy
import Idealize.ShloMosaic.Init

noncomputable section

namespace Cert.Proof

open Idealize.ShloMosaic Idealize.SL.Sem

/-- Both idealized programs end with their result at `mlp` of the arguments: the kernel's returned array by its run read
    tile by tile, the reference's by its run read entry by entry, from memories that agree on the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
